-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 36
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S_, .i32⟩
  | .hbm, ⟨26, _⟩ => ⟨S50000, .i32⟩
  | .hbm, ⟨27, _⟩ => ⟨S800000x1, .i32⟩
  | .hbm, ⟨28, _⟩ => ⟨S50000, .i32⟩
  | .hbm, ⟨29, _⟩ => ⟨S50000, .f32⟩
  | .hbm, ⟨30, _⟩ => ⟨S50000x1, .f32⟩
  | .hbm, ⟨31, _⟩ => ⟨S1x64, .f32⟩
  | .hbm, ⟨32, _⟩ => ⟨S1x64, .f32⟩
  | .hbm, ⟨33, _⟩ => ⟨S64x64, .f32⟩
  | .hbm, ⟨34, _⟩ => ⟨S64x64, .f32⟩
  | .hbm, ⟨35, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  shapeCasts_S64_S1x64 : S64.ShapeCasts S1x64
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  natLt_1_32 : 1 < 32
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S64x64, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.AggLaw.lean ====
/-
  The law that joins "project each neighbour's features, then average" with "average the neighbours' features, then
  project", on the extended reals, for finite data.

  Fix a node, let `S` be the set of edges that land on it and `c = |S|` its in-degree, `d = max c 1`. For real feature rows
  `x e` (the source node's features along edge `e`), a real weight row `w` and a real bias `b`:

      (∑_{e ∈ S} (∑_k x e k · w k + b)) / d  =  ∑_k ((∑_{e ∈ S} x e k) / d) · w k  +  b · [c > 0].

  With `c = 0` both sides are `0`; with `c > 0` the divisor is `c`, the bias is added `c` times and divided by `c`.
  Division by the positive real `d` is multiplication by `1/d`, so everything is an identity of real numbers once the
  coercions are pushed outward. The indicator `[c > 0]` is spelt as the kernel spells it: the one-bit "greater than zero"
  compare, zero-extended to 32 bits, read as a signed integer.
-/
import Idealize.ShloMosaic.PureOps.Ideal

noncomputable section

open scoped BigOperators

namespace Cert.AggLaw

open Idealize.ShloMosaic

/-- A finite sum of reals, coerced term by term, is the coerced sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The indicator of a positive in-degree, as the kernel spells it. -/
def posMask (c : EReal) : EReal := ((((Ideal.cmp .ogt c 0).setWidth 32).toInt : ℝ) : EReal)

theorem posMask_coe_nat (n : ℕ) : posMask (((n : ℝ)) : EReal) = (((if 0 < n then 1 else 0 : ℝ)) : EReal) := by
  unfold posMask Ideal.cmp
  by_cases h : 0 < n
  · have h' : (0 : EReal) < (((n : ℝ)) : EReal) := by exact_mod_cast h
    have hb : (BitVec.setWidth 32 (BitVec.ofBool true)).toInt = 1 := by decide
    simp only [h', decide_true, h, if_true, hb]
    norm_num
  · have h' : ¬ (0 : EReal) < (((n : ℝ)) : EReal) := by
      have : n = 0 := by omega
      subst this; simp
    have hb : (BitVec.setWidth 32 (BitVec.ofBool false)).toInt = 0 := by decide
    simp only [h', decide_false, h, if_false, hb]
    norm_num

/-- The real identity: averaging after projecting, against projecting the average plus the masked bias. -/
theorem real_law {E : Type} {K : ℕ} (S : Finset E) (x : E → Fin K → ℝ) (w : Fin K → ℝ) (b : ℝ) :
    (∑ e ∈ S, ((∑ k, x e k * w k) + b)) * (1 / max (S.card : ℝ) 1)
      = (∑ k, ((∑ e ∈ S, x e k) * (1 / max (S.card : ℝ) 1)) * w k) + b * (if 0 < S.card then 1 else 0) := by
  have hkey : (S.card : ℝ) * (1 / max (S.card : ℝ) 1) = (if 0 < S.card then 1 else 0 : ℝ) := by
    by_cases h : 0 < S.card
    · have h1 : (1 : ℝ) ≤ (S.card : ℝ) := by exact_mod_cast h
      rw [if_pos h, max_eq_left h1, mul_one_div, div_self (by positivity)]
    · have : S.card = 0 := by omega
      rw [if_neg h, this]; simp
  have hswap : (∑ k, ((∑ e ∈ S, x e k) * (1 / max (S.card : ℝ) 1)) * w k)
      = (∑ e ∈ S, ∑ k, x e k * w k) * (1 / max (S.card : ℝ) 1) := by
    simp only [Finset.sum_mul]
    rw [Finset.sum_comm]
    exact Finset.sum_congr rfl fun e _ => Finset.sum_congr rfl fun k _ => by ring
  rw [hswap, Finset.sum_add_distrib, Finset.sum_const, nsmul_eq_mul, add_mul, ← hkey]
  ring

/-- THE LAW on the extended reals, over the edges selected by a predicate, written with the guarded sums a scatter
    reads as (`if the edge lands here then its term else 0`). -/
theorem agg_law {E : Type} [Fintype E] {K : ℕ} (hit : E → Prop) [DecidablePred hit] (x : E → Fin K → ℝ) (w : Fin K → ℝ)
    (b : ℝ) :
    Ideal.div (∑ e, if hit e then ((∑ k, (x e k : EReal) * (w k : EReal)) + (b : EReal)) else 0)
        (max ((((Finset.univ.filter hit).card : ℝ)) : EReal) 1)
      = (∑ k, Ideal.div (∑ e, if hit e then (x e k : EReal) else 0)
            (max ((((Finset.univ.filter hit).card : ℝ)) : EReal) 1) * (w k : EReal))
        + (b : EReal) * posMask ((((Finset.univ.filter hit).card : ℝ)) : EReal) := by
  set S := Finset.univ.filter hit with hS
  have hd : max (S.card : ℝ) 1 ≠ 0 := ne_of_gt (lt_of_lt_of_le one_pos (le_max_right _ _))
  have hmax : max (((S.card : ℝ)) : EReal) 1 = ((max (S.card : ℝ) 1 : ℝ) : EReal) := by
    rw [← EReal.coe_one]; exact (EReal.coe_strictMono.monotone.map_max).symm
  rw [hmax, posMask_coe_nat, Ideal.div_coe hd]
  simp only [← Finset.sum_filter, ← hS, Ideal.div_coe hd, ← EReal.coe_mul, coe_sum, ← EReal.coe_add]
  exact congrArg _ (real_law S x w b)

end Cert.AggLaw

end
-- ==== Proof.Spec.lean ====
/-
  What both programs compute, as one function of the arguments, index by index.

  A graph layer over 50000 nodes with 64 features and 800000 edges. Edge `e` goes from node `src e` to the node its
  destination word names; `src e` is the source word read signed and cut into `[0, 49999]` (a gather clamps), and an edge
  `lands` on node `n` when its destination word read signed is `n` (a scatter drops a word outside the array). `deg n` is
  the number of edges landing on `n`. With `wsT`, `wmT` the transposed self and message weights:

      G[n, j]  = (∑_k x[n,k]·wsT[k,j] + bs[j]) + (∑_{e lands on n} (∑_k x[src e,k]·wmT[k,j] + bm[j])) / max(deg n, 1)
      KF[n, j] = (∑_k x[n,k]·wsT[k,j] + bs[j]) + (∑_k ((∑_{e lands on n} x[src e,k]) / max(deg n, 1))·wmT[k,j] + bm[j]·[deg n > 0])

  `G` is the reference's arrangement (project every node, gather, average); `KF` is the kernel's (gather raw features,
  average, project once, add the bias only where a neighbour exists). They are one function when `x`, `wmT` and `bm` hold
  real numbers (the law of AggLaw); the self part is literally the same and asks nothing.
-/
import Idealize.ShloMosaic.PureOps.Ideal
import Idealize.ShloMosaic.Lib.ValueIdx
import proofs.«420493_j28346784153658_3_alg».proof.Proof.AggLaw

noncomputable section

open scoped BigOperators

namespace Cert.Sage

open Idealize.ShloMosaic Idealize.ShloMosaic.ValueIdx

abbrev Nodes : Shape := ⟨2, ![50000, 64]⟩
abbrev Wts : Shape := ⟨2, ![64, 64]⟩
abbrev EdgeCol : Shape := ⟨2, ![800000, 1]⟩
abbrev Bias : Shape := ⟨1, ![64]⟩

/-- The source node of edge `e`: its word read signed, cut into the node range. -/
def src (ridx : IVec EdgeCol 32) (e : Fin 800000) : Fin 50000 :=
  ⟨min (ridx (ix2 e (0 : Fin 1))).toInt.toNat (50000 - 1), by omega⟩

/-- Edge `e` lands on node `n`: its destination word read signed is `n`. -/
abbrev lands (cidx : IVec EdgeCol 32) (n : Fin 50000) (e : Fin 800000) : Prop :=
  (cidx (ix2 e (0 : Fin 1))).toInt = (n.val : ℤ)

/-- The in-degree of node `n`. -/
def deg (cidx : IVec EdgeCol 32) (n : Fin 50000) : ℕ := (Finset.univ.filter (lands cidx n)).card

theorem deg_le (cidx : IVec EdgeCol 32) (n : Fin 50000) : deg cidx n ≤ 800000 := by
  unfold deg
  exact (Finset.card_le_univ _).trans (by rw [Fintype.card_fin])

/-- The node's own features through the self weights, plus the self bias. -/
def selfPart (x : Nodes.Idx → EReal) (wsT : Wts.Idx → EReal) (bs : Bias.Idx → EReal) (n : Fin 50000) (j : Fin 64) : EReal :=
  (∑ k : Fin 64, x (ix2 n k) * wsT (ix2 k j)) + bs (ix1 j)

/-- The reference's arrangement: every landing edge brings its source's projected message; the mean over `max(deg, 1)`. -/
def G (x : Nodes.Idx → EReal) (ridx cidx : IVec EdgeCol 32) (wmT wsT : Wts.Idx → EReal) (bm bs : Bias.Idx → EReal) :
    Nodes.Idx → EReal := fun i =>
  selfPart x wsT bs (i 0) (i 1)
    + Ideal.div (∑ e : Fin 800000, if lands cidx (i 0) e
          then ((∑ k : Fin 64, x (ix2 (src ridx e) k) * wmT (ix2 k (i 1))) + bm (ix1 (i 1))) else 0)
        (max (((deg cidx (i 0) : ℝ)) : EReal) 1)

/-- The kernel's arrangement: the landing edges' raw source features averaged, projected once; the message bias kept
    only where some edge lands. -/
def KF (x : Nodes.Idx → EReal) (ridx cidx : IVec EdgeCol 32) (wmT wsT : Wts.Idx → EReal) (bm bs : Bias.Idx → EReal) :
    Nodes.Idx → EReal := fun i =>
  selfPart x wsT bs (i 0) (i 1)
    + ((∑ k : Fin 64, Ideal.div (∑ e : Fin 800000, if lands cidx (i 0) e then x (ix2 (src ridx e) k) else 0)
            (max (((deg cidx (i 0) : ℝ)) : EReal) 1) * wmT (ix2 k (i 1)))
        + bm (ix1 (i 1)) * AggLaw.posMask (((deg cidx (i 0) : ℝ)) : EReal))

theorem G_ix2 (x : Nodes.Idx → EReal) (ridx cidx : IVec EdgeCol 32) (wmT wsT : Wts.Idx → EReal) (bm bs : Bias.Idx → EReal)
    (n : Fin 50000) (j : Fin 64) :
    G x ridx cidx wmT wsT bm bs (ix2 n j)
      = selfPart x wsT bs n j
        + Ideal.div (∑ e : Fin 800000, if lands cidx n e then selfPart x wmT bm (src ridx e) j else 0)
            (max (((deg cidx n : ℝ)) : EReal) 1) := rfl

theorem KF_ix2 (x : Nodes.Idx → EReal) (ridx cidx : IVec EdgeCol 32) (wmT wsT : Wts.Idx → EReal) (bm bs : Bias.Idx → EReal)
    (n : Fin 50000) (j : Fin 64) :
    KF x ridx cidx wmT wsT bm bs (ix2 n j)
      = selfPart x wsT bs n j
        + ((∑ k : Fin 64, Ideal.div (∑ e : Fin 800000, if lands cidx n e then x (ix2 (src ridx e) k) else 0)
              (max (((deg cidx n : ℝ)) : EReal) 1) * wmT (ix2 k j))
          + bm (ix1 j) * AggLaw.posMask (((deg cidx n : ℝ)) : EReal)) := rfl

/-- For real features, message weights and message bias the two arrangements agree at every node and feature. -/
theorem KF_eq_G (xr : Nodes.Idx → ℝ) (ridx cidx : IVec EdgeCol 32) (wr : Wts.Idx → ℝ) (wsT : Wts.Idx → EReal)
    (br : Bias.Idx → ℝ) (bs : Bias.Idx → EReal) :
    KF (fun i => (xr i : EReal)) ridx cidx (fun i => (wr i : EReal)) wsT (fun i => (br i : EReal)) bs
      = G (fun i => (xr i : EReal)) ridx cidx (fun i => (wr i : EReal)) wsT (fun i => (br i : EReal)) bs := by
  funext i
  unfold KF G deg
  congr 1
  exact (AggLaw.agg_law (hit := lands cidx (i 0)) (x := fun e k => xr (ix2 (src ridx e) k))
    (w := fun k => wr (ix2 k (i 1))) (b := br (ix1 (i 1)))).symm

end Cert.Sage

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.RefSide.lean ====
/-
  The reference's result is `G`.

  The reference projects every node's features through the message weights and adds the message bias (`msgs`), gathers
  `msgs` at each edge's source, adds the gathered rows into the destination nodes, divides by `max(deg, 1)`, and adds the
  node's own projection. Read at `(n, j)`: the accumulating scatter is the sum over the edges landing on `n`, the gather
  reads `msgs` at row `src e`, both products are sums over the 64 features, the scattered ones count the landing edges.
  The index columns, the transposed weights and the biases stay opaque: both programs build them alike.
-/
import proofs.«420493_j28346784153658_3_alg».proof.Proof.Gen.ReferenceIdeal.Run
import proofs.«420493_j28346784153658_3_alg».proof.Proof.Spec
import proofs.«420493_j28346784153658_3_alg».proof.Proof.LibScatterGather
import proofs.«420493_j28346784153658_3_alg».proof.Proof.LibPlainDot
import Idealize.ShloMosaic.Lib.Pipeline.Value
import Idealize.ShloMosaic.Lib.IdealHost

noncomputable section

open scoped BigOperators

namespace Cert.Sage.Ref

open Cert.ReferenceIdeal Cert.ReferenceIdeal.Gen Idealize.ShloMosaic Idealize.ShloMosaic.ValueIdx

/-- A bias vector laid along the rows of the node array reads its own entry at every node. -/
theorem bias_apply (b : FVec Ideal S64 .f32) (n : Fin 50000) (j : Fin 64) :
    broadcastInDim S50000x64 ![0, 1] bcast_S1x64_S50000x64_0_1 (broadcastInDim S1x64 ![1] bcast_S64_S1x64_1 b) (ix2 n j)
      = b (ix1 j) := by
  rw [broadcastInDim_apply ![0, 1] bcast_S1x64_S50000x64_0_1 _ (ix2 n j) (ix2 (0 : Fin 1) j)
      (by intro a; match a with | ⟨0, _⟩ => rfl | ⟨1, _⟩ => rfl),
    broadcastInDim_apply ![1] bcast_S64_S1x64_1 b (ix2 (0 : Fin 1) j) (ix1 j)
      (by intro a; match a with | ⟨0, _⟩ => rfl)]

/-- A per-node vector laid along the features reads the node's entry at every feature. -/
theorem percol_apply (v : FVec Ideal S50000 .f32) (n : Fin 50000) (j : Fin 64) :
    broadcastInDim S50000x64 ![0, 1] bcast_S50000x1_S50000x64_0_1 (broadcastInDim S50000x1 ![0] bcast_S50000_S50000x1_0 v) (ix2 n j)
      = v (ix1 n) := by
  rw [broadcastInDim_apply ![0, 1] bcast_S50000x1_S50000x64_0_1 _ (ix2 n j) (ix2 n (0 : Fin 1))
      (by intro a; match a with | ⟨0, _⟩ => rfl | ⟨1, _⟩ => rfl),
    broadcastInDim_apply ![0] bcast_S50000_S50000x1_0 v (ix2 n (0 : Fin 1)) (ix1 n)
      (by intro a; match a with | ⟨0, _⟩ => rfl)]

/-- A projection plus its bias at `(r, j)`: the sum over the features of row `r` times column `j` of the transposed
    weights, plus entry `j` of the bias. Serves the self part (row `n`) and the messages (row `src e`). -/
theorem proj_apply (x : FVec Ideal S50000x64 .f32) (wT : FVec Ideal S64x64 .f32) (b : FVec Ideal S64 .f32)
    (r : Fin 50000) (j : Fin 64) :
    addf (Host.dotGeneral dot_S50000x64_S64x64_S50000x64_1_0_0_1_n_n none x wT)
        (broadcastInDim S50000x64 ![0, 1] bcast_S1x64_S50000x64_0_1 (broadcastInDim S1x64 ![1] bcast_S64_S1x64_1 b)) (ix2 r j)
      = Sage.selfPart x wT b r j := by
  rw [addf_apply, bias_apply]
  show FloatOps.dotGeneral dot_S50000x64_S64x64_S50000x64_1_0_0_1_n_n none .single x wT (ix2 r j) + _ = _
  rw [LibPlainDot.dotGeneral_eq_matProd dot_S50000x64_S64x64_S50000x64_1_0_0_1_n_n rfl rfl rfl rfl rfl rfl none .single x wT,
    LibPlainDot.matProd_ix2]
  rfl

/-- The gathered rows added into their destinations, read at `(n, j)`: the sum over the edges landing on `n` of entry `j`
    of the row at the edge's source. The scatter starts from zeros. -/
theorem summed_apply (ms : FVec Ideal S50000x64 .f32) (RIDX CIDX : IVec S800000x1 32) (n : Fin 50000) (j : Fin 64) :
    Host.scatterAdd scatter_S50000x64_S800000x1_S800000x64_1_0_0_1
        (broadcastInDim S50000x64 ![] bcast_S_S50000x64 (constant S_ .f32 0x00000000#32)) CIDX
        (Host.gather gather_S50000x64_S800000x1_S800000x64_1_0_n_n_0_1_164 ms RIDX) (ix2 n j)
      = ∑ e : Fin 800000, if Sage.lands CIDX n e then ms (ix2 (Sage.src RIDX e) j) else 0 := by
  rw [LibScatterGather.scatterAdd_rows_apply scatter_S50000x64_S800000x1_S800000x64_1_0_0_1 rfl rfl rfl rfl _ CIDX _ n j,
    show (broadcastInDim S50000x64 ![] bcast_S_S50000x64 (constant (F := Ideal) S_ .f32 0x00000000#32)) (ix2 n j) = 0
      from Ideal.ofBits_zero_f32, zero_add]
  refine Finset.sum_congr rfl fun e _ => ?_
  rw [LibScatterGather.gather_rows_apply gather_S50000x64_S800000x1_S800000x64_1_0_n_n_0_1_164 rfl rfl rfl rfl rfl rfl rfl
    ms RIDX e j (by norm_num)]
  rfl

/-- Ones added into zeros at the destinations, read at `n`: the in-degree of `n`. -/
theorem count_apply (CIDX : IVec S800000x1 32) (n : Fin 50000) :
    Host.scatterAdd scatter_S50000_S800000x1_S800000_n_0_0_1
        (broadcastInDim S50000 ![] bcast_S_S50000 (constant (F := Ideal) S_ .f32 0x00000000#32)) CIDX
        (broadcastInDim S800000 ![] bcast_S_S800000 (constant (F := Ideal) S_ .f32 0x3F800000#32)) (ix1 n)
      = (((Sage.deg CIDX n : ℝ)) : EReal) := by
  rw [LibScatterGather.scatterAdd_vec_apply scatter_S50000_S800000x1_S800000_n_0_0_1 rfl rfl rfl rfl _ CIDX _ n,
    show (broadcastInDim S50000 ![] bcast_S_S50000 (constant (F := Ideal) S_ .f32 0x00000000#32)) (ix1 n) = 0
      from Ideal.ofBits_zero_f32, zero_add]
  have h1 : ∀ e : Fin 800000,
      (broadcastInDim S800000 ![] bcast_S_S800000 (constant (F := Ideal) S_ .f32 0x3F800000#32)) (ix1 e) = (1 : EReal) :=
    fun _ => Ideal.ofBits_one_f32
  simp only [h1]
  rw [Finset.sum_boole]
  rfl

/-- The host's quotient read at an index. -/
theorem hdiv_apply {s : Shape} (a b : FVec Ideal s .f32) (i : s.Idx) : Host.divf a b i = Ideal.div (a i) (b i) := rfl

/-- THE REFERENCE'S RESULT, as the run's composed term over opaque columns, weights and biases, is `G`. -/
theorem result_eq_G (x : FVec Ideal S50000x64 .f32) (wsT wmT : FVec Ideal S64x64 .f32) (bs bm : FVec Ideal S64 .f32)
    (RIDX CIDX : IVec S800000x1 32) :
    addf (addf (Host.dotGeneral dot_S50000x64_S64x64_S50000x64_1_0_0_1_n_n none x wsT)
          (broadcastInDim S50000x64 ![0, 1] bcast_S1x64_S50000x64_0_1 (broadcastInDim S1x64 ![1] bcast_S64_S1x64_1 bs)))
      (Host.divf
        (Host.scatterAdd scatter_S50000x64_S800000x1_S800000x64_1_0_0_1
          (broadcastInDim S50000x64 ![] bcast_S_S50000x64 (constant S_ .f32 0x00000000#32)) CIDX
          (Host.gather gather_S50000x64_S800000x1_S800000x64_1_0_n_n_0_1_164
            (addf (Host.dotGeneral dot_S50000x64_S64x64_S50000x64_1_0_0_1_n_n none x wmT)
              (broadcastInDim S50000x64 ![0, 1] bcast_S1x64_S50000x64_0_1 (broadcastInDim S1x64 ![1] bcast_S64_S1x64_1 bm)))
            RIDX))
        (broadcastInDim S50000x64 ![0, 1] bcast_S50000x1_S50000x64_0_1 (broadcastInDim S50000x1 ![0] bcast_S50000_S50000x1_0
          (maximumf
            (Host.scatterAdd scatter_S50000_S800000x1_S800000_n_0_0_1
              (broadcastInDim S50000 ![] bcast_S_S50000 (constant S_ .f32 0x00000000#32)) CIDX
              (broadcastInDim S800000 ![] bcast_S_S800000 (constant S_ .f32 0x3F800000#32)))
            (broadcastInDim S50000 ![] bcast_S_S50000 (constant S_ .f32 0x3F800000#32))))))
      = Sage.G x RIDX CIDX wmT wsT bm bs := by
  funext i
  obtain ⟨n, j, rfl⟩ : ∃ (n : Fin 50000) (j : Fin 64), i = ix2 n j := ⟨i 0, i 1, eq_ix2 i⟩
  rw [addf_apply, proj_apply, hdiv_apply, summed_apply, percol_apply, maximumf_apply, count_apply,
    show (broadcastInDim S50000 ![] bcast_S_S50000 (constant (F := Ideal) S_ .f32 0x3F800000#32)) (ix1 n) = (1 : EReal)
      from Ideal.ofBits_one_f32, Sage.G_ix2]
  refine congrArg (fun z => Sage.selfPart x wsT bs n j + Ideal.div z (max (((Sage.deg CIDX n : ℝ)) : EReal) 1))
    (Finset.sum_congr rfl fun e _ => ?_)
  rw [proj_apply]

end Cert.Sage.Ref

end
-- ==== Proof.LibIntCount.lean ====
/-
  An integer scatter whose body adds, read at one element.

  The host's scatter is a left fold over the updates in row-major order: each update whose landing index is inside the
  operand replaces the element there by the body applied to it and the update. Read at ONE element the fold only ever
  touches that element (`foldl_step_apply`), and when the body is addition in a commutative monoid the fold is the
  element plus the sum of the updates landing on it (`foldl_add_ite`). For a vector of `M` words scattered into a vector
  of length `N` by a column of `M` index words (`scatter_addi_vec_apply`) element `i` ends as the operand's element plus
  the sum of the updates whose index word, read signed, is `i`; ones scattered into zeros COUNT those words
  (`scatter_addi_ones_toInt`), exactly while the count stays below 2^31.
-/
import Idealize.ShloMosaic.PureOps.Ideal
import Idealize.ShloMosaic.Lib.ValueIdx
import Mathlib.Data.BitVec
import proofs.«420493_j28346784153658_3_alg».proof.Proof.LibScatterGather

noncomputable section

open scoped BigOperators

namespace Cert.LibIntCount

open Idealize.ShloMosaic Idealize.ShloMosaic.ValueIdx

/-- Read at element `i`, the scatter's fold is a fold on that one element: an update landing elsewhere leaves it. -/
theorem scatter_apply_fold {α : Type} {s si u : Shape} {w : Nat} (d : ScatterDims s si u) (f : α → α → α)
    (x : s.Idx → α) (idx : IVec si w) (upd : u.Idx → α) (i : s.Idx) :
    Host.scatter d f x idx upd i
      = (List.finRange u.numel).foldl (fun a n =>
          if d.resultIdx? (u.rowMajor.symm n) idx = some i then f a (upd (u.rowMajor.symm n)) else a) (x i) := by
  unfold Host.scatter
  generalize List.finRange u.numel = L
  induction L generalizing x with
  | nil => rfl
  | cons n L ih =>
    rw [List.foldl_cons, List.foldl_cons, ih]
    congr 1
    cases hg : d.resultIdx? (u.rowMajor.symm n) idx with
    | none => simp
    | some i0 =>
      by_cases h : i = i0
      · subst h; simp
      · simp [h, Ne.symm h]

/-- A fold that adds the selected terms is the start plus their sum. -/
theorem foldl_add_ite {κ A : Type} [AddCommMonoid A] (p : κ → Prop) [DecidablePred p] (u : κ → A) :
    ∀ (L : List κ) (a : A),
      L.foldl (fun a n => if p n then a + u n else a) a = a + (L.map fun n => if p n then u n else 0).sum
  | [], a => by simp
  | n :: L, a => by
    rw [List.foldl_cons, foldl_add_ite p u L, List.map_cons, List.sum_cons]
    by_cases h : p n
    · rw [if_pos h, if_pos h, add_assoc]
    · rw [if_neg h, if_neg h, zero_add]

/-- THE INTEGER VECTOR SCATTER READ AT `i`: the operand's word plus the sum, over the `M` updates, of those whose index
    word read signed is `i` (a word outside `[0, N)` lands nowhere). -/
theorem scatter_addi_vec_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : IVec ⟨1, ![N]⟩ 32) (idx : IVec ⟨2, ![M, 1]⟩ w) (upd : IVec ⟨1, ![M]⟩ 32) (i : Fin N) :
    Host.scatter d IntOp.addi x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  rw [scatter_apply_fold]
  refine (foldl_add_ite
    (p := fun n => (LibScatterGather.vecDims N M wf).resultIdx? ((⟨1, ![M]⟩ : Shape).rowMajor.symm n) idx = some (ix1 i))
    (u := fun n => upd ((⟨1, ![M]⟩ : Shape).rowMajor.symm n)) _ _).trans ?_
  congr 1
  rw [← Fin.sum_univ_def,
    Equiv.sum_comp (⟨1, ![M]⟩ : Shape).rowMajor.symm
      (fun j => if (LibScatterGather.vecDims N M wf).resultIdx? j idx = some (ix1 i) then upd j else 0),
    LibScatterGather.sum_idx1]
  refine Finset.sum_congr rfl fun e _ => ?_
  exact if_congr (LibScatterGather.vec_resultIdx wf idx (ix1 e) i) rfl rfl

/-- A count below 2^31, as a 32-bit word read signed, is itself. -/
theorem toInt_natCast_small (k : Nat) (hk : k < 2147483648) : ((k : BitVec 32)).toInt = (k : ℤ) := by
  have h1 : ((k : BitVec 32)).toNat = k := by
    rw [BitVec.natCast_eq_ofNat, BitVec.toNat_ofNat]
    exact Nat.mod_eq_of_lt (by omega)
  rw [BitVec.toInt_eq_toNat_of_lt (by rw [h1]; omega), h1]

/-- ONES SCATTERED INTO ZEROS COUNT: element `i`, read signed, is the number of updates whose index word read signed is
    `i`, as long as there are fewer than 2^31 updates. -/
theorem scatter_addi_ones_toInt {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (hM : M < 2147483648)
    (x : IVec ⟨1, ![N]⟩ 32) (hx : ∀ j, x j = 0#32) (idx : IVec ⟨2, ![M, 1]⟩ w)
    (upd : IVec ⟨1, ![M]⟩ 32) (hu : ∀ j, upd j = 1#32) (i : Fin N) :
    (Host.scatter d IntOp.addi x idx upd (ix1 i)).toInt
      = ((Finset.univ.filter fun e : Fin M => (idx (ix2 e (0 : Fin 1))).toInt = (i.val : ℤ)).card : ℤ) := by
  rw [scatter_addi_vec_apply d huw hiw hsd hivd, hx]
  have hs : (∑ e : Fin M, if (idx (ix2 e (0 : Fin 1))).toInt = (i.val : ℤ) then upd (ix1 e) else 0)
      = ((Finset.univ.filter fun e : Fin M => (idx (ix2 e (0 : Fin 1))).toInt = (i.val : ℤ)).card : BitVec 32) := by
    rw [← Finset.sum_boole]
    exact Finset.sum_congr rfl fun e _ => by rw [hu]; rfl
  rw [hs, show (0#32 : BitVec 32) = 0 from rfl, zero_add]
  refine toInt_natCast_small _ (lt_of_le_of_lt (Finset.card_le_univ _) ?_)
  rw [Fintype.card_fin]; exact hM

end Cert.LibIntCount

end
-- ==== Proof.KernelHost.lean ====
/-
  What the region finds in the arrays its windows stage, read at an index.

  Before the region the host gathers the raw features at each edge's source and adds them into the destinations (the
  summed neighbour features), counts the landing edges in 32-bit integers and converts the count, transposes both weight
  matrices and lays both biases out as 1 × 64 rows. Read at an index:
    summed[n, k]  = ∑ over the edges landing on n of x[src e, k]         (the scatter starts from zeros)
    count[n, 0]   = deg n, exactly (at most 800000 edges, far below 2^31, so the 32-bit count never wraps)
    a bias row at (0, q) is the bias at q.
-/
import proofs.«420493_j28346784153658_3_alg».proof.Proof.Gen.KernelIdeal.Frame
import proofs.«420493_j28346784153658_3_alg».proof.Proof.Spec
import proofs.«420493_j28346784153658_3_alg».proof.Proof.LibScatterGather
import proofs.«420493_j28346784153658_3_alg».proof.Proof.LibIntCount
import Idealize.ShloMosaic.Lib.StableHlo.Run
import Idealize.ShloMosaic.Lib.Pipeline.Value

noncomputable section

open scoped BigOperators

namespace Cert.Sage.Ker

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The arguments as launched, at their literal types. -/
abbrev A0 (c : Dev nD) : FVec Ideal S50000x64 .f32 := m ((c : Thread nD τ).loc main_arg0)
abbrev A1 (c : Dev nD) : IVec S2x800000 32 := m ((c : Thread nD τ).loc main_arg1)
abbrev A2 (c : Dev nD) : FVec Ideal S64x64 .f32 := m ((c : Thread nD τ).loc main_arg2)
abbrev A3 (c : Dev nD) : FVec Ideal S64 .f32 := m ((c : Thread nD τ).loc main_arg3)
abbrev A4 (c : Dev nD) : FVec Ideal S64x64 .f32 := m ((c : Thread nD τ).loc main_arg4)
abbrev A5 (c : Dev nD) : FVec Ideal S64 .f32 := m ((c : Thread nD τ).loc main_arg5)

/-- Row `r` of the edge list as a vector of words. -/
abbrev srcWords (ei : IVec S2x800000 32) : IVec S800000 32 :=
  shapeCast _ (extractStridedSlice S1x800000 ![0, 0] ei slices_S2x800000_S1x800000_0_0) shapeCasts_S1x800000_S800000
abbrev dstWords (ei : IVec S2x800000 32) : IVec S800000 32 :=
  shapeCast _ (extractStridedSlice S1x800000 ![1, 0] ei slices_S2x800000_S1x800000_1_0) shapeCasts_S1x800000_S800000

/-- The gather's index column: the source words, a negative one moved up by the node count, as a column. -/
abbrev ridxK (ei : IVec S2x800000 32) : IVec S800000x1 32 :=
  broadcastInDim S800000x1 ![0] bcast_S800000_S800000x1_0
    (select (cmpi .slt (srcWords ei) (broadcastInDim S800000 ![] bcast_S_S800000 (constantI S_ 32 0#32)))
      (addi (srcWords ei) (broadcastInDim S800000 ![] bcast_S_S800000 (constantI S_ 32 50000#32))) (srcWords ei))

/-- The scatters' index column: the destination words as a column. -/
abbrev cidxK (ei : IVec S2x800000 32) : IVec S800000x1 32 :=
  broadcastInDim S800000x1 ![0] bcast_S800000_S800000x1_0 (dstWords ei)

/-- The host-written arrays the windows stage, at their literal types. -/
abbrev summedV (c : Dev nD) : FVec Ideal S50000x64 .f32 := V m c main_v13
abbrev countV (c : Dev nD) : FVec Ideal S50000x1 .f32 := V m c main_v19
abbrev wsTV (c : Dev nD) : FVec Ideal S64x64 .f32 := V m c main_v22
abbrev wmTV (c : Dev nD) : FVec Ideal S64x64 .f32 := V m c main_v23
abbrev bsRowV (c : Dev nD) : FVec Ideal S1x64 .f32 := V m c main_v21
abbrev bmRowV (c : Dev nD) : FVec Ideal S1x64 .f32 := V m c main_v20

set_option maxHeartbeats 1000000 in
/-- The summed neighbour features as the host computes them. -/
theorem V13 (c : Dev nD) : summedV m c
    = Host.scatterAdd scatter_S50000x64_S800000x1_S800000x64_1_0_0_1
        (broadcastInDim S50000x64 ![] bcast_S_S50000x64 (constant S_ .f32 0x00000000#32)) (cidxK (A1 m c))
        (Host.gather gather_S50000x64_S800000x1_S800000x64_1_0_n_n_0_1_164 (A0 m c) (ridxK (A1 m c))) := by
  dsimp only [summedV, countV, wsTV, wmTV, bsRowV, bmRowV, V, hostOps0]; after_results_simp <;> rfl

set_option maxHeartbeats 1000000 in
/-- The in-degree column as the host computes it: counted in integers, converted, reshaped. -/
theorem V19 (c : Dev nD) : countV m c
    = shapeCast _ (sitofp (F := Ideal) .f32 (Host.scatter scatter_S50000_S800000x1_S800000_n_0_0_1 IntOp.addi
        (broadcastInDim S50000 ![] bcast_S_S50000 (constantI S_ 32 0#32)) (cidxK (A1 m c))
        (broadcastInDim S800000 ![] bcast_S_S800000 (constantI S_ 32 1#32)))) shapeCasts_S50000_S50000x1 := by
  dsimp only [summedV, countV, wsTV, wmTV, bsRowV, bmRowV, V, hostOps0]; after_results_simp <;> rfl

set_option maxHeartbeats 1000000 in
theorem V22 (c : Dev nD) : wsTV m c = transpose S64x64 [1, 0] (A4 m c) transposes_S64x64_S64x64_1_0 := by
  dsimp only [summedV, countV, wsTV, wmTV, bsRowV, bmRowV, V, hostOps0]; after_results_simp <;> rfl

set_option maxHeartbeats 1000000 in
theorem V23 (c : Dev nD) : wmTV m c = transpose S64x64 [1, 0] (A2 m c) transposes_S64x64_S64x64_1_0 := by
  dsimp only [summedV, countV, wsTV, wmTV, bsRowV, bmRowV, V, hostOps0]; after_results_simp <;> rfl

set_option maxHeartbeats 1000000 in
theorem V21 (c : Dev nD) : bsRowV m c = shapeCast _ (A5 m c) shapeCasts_S64_S1x64 := by
  dsimp only [summedV, countV, wsTV, wmTV, bsRowV, bmRowV, V, hostOps0]; after_results_simp <;> rfl

set_option maxHeartbeats 1000000 in
theorem V20 (c : Dev nD) : bmRowV m c = shapeCast _ (A3 m c) shapeCasts_S64_S1x64 := by
  dsimp only [summedV, countV, wsTV, wmTV, bsRowV, bmRowV, V, hostOps0]; after_results_simp <;> rfl

/-- Summed neighbour features at `(n, k)`. -/
theorem summed_apply (c : Dev nD) (n : Fin 50000) (k : Fin 64) :
    summedV m c (ix2 n k)
      = ∑ e : Fin 800000, if Sage.lands (cidxK (A1 m c)) n e then A0 m c (ix2 (Sage.src (ridxK (A1 m c)) e) k) else 0 := by
  rw [V13, LibScatterGather.scatterAdd_rows_apply scatter_S50000x64_S800000x1_S800000x64_1_0_0_1 rfl rfl rfl rfl _ _ _ n k,
    show (broadcastInDim S50000x64 ![] bcast_S_S50000x64 (constant (F := Ideal) S_ .f32 0x00000000#32)) (ix2 n k) = 0
      from Ideal.ofBits_zero_f32, zero_add]
  refine Finset.sum_congr rfl fun e _ => ?_
  rw [LibScatterGather.gather_rows_apply gather_S50000x64_S800000x1_S800000x64_1_0_n_n_0_1_164 rfl rfl rfl rfl rfl rfl rfl
    (A0 m c) _ e k (by norm_num)]
  rfl

/-- The in-degree column at `(n, 0)`: the real number `deg n`. -/
theorem count_apply (c : Dev nD) (n : Fin 50000) :
    countV m c (ix2 n (0 : Fin 1)) = (((Sage.deg (cidxK (A1 m c)) n : ℝ)) : EReal) := by
  rw [V19, shapeCast_apply _ shapeCasts_S50000_S50000x1 (ix2 n (0 : Fin 1)) (ix1 n)
      (by rewrite [Shape.rowMajor_val_one, Shape.rowMajor_val_two]; show n.val = n.val * 1 + 0; omega),
    sitofp_apply]
  show (((Host.scatter scatter_S50000_S800000x1_S800000_n_0_0_1 IntOp.addi _ (cidxK (A1 m c)) _ (ix1 n)).toInt : ℝ) : EReal) = _
  rw [LibIntCount.scatter_addi_ones_toInt scatter_S50000_S800000x1_S800000_n_0_0_1 rfl rfl rfl rfl (by norm_num)
    (broadcastInDim S50000 ![] bcast_S_S50000 (constantI S_ 32 0#32)) (fun _ => rfl) (cidxK (A1 m c))
    (broadcastInDim S800000 ![] bcast_S_S800000 (constantI S_ 32 1#32)) (fun _ => rfl) n]
  unfold Sage.deg
  norm_cast

/-- A bias laid out as a 1 × 64 row reads the bias at the column. -/
theorem biasrow_apply (b : FVec Ideal S64 .f32) (q : Fin 64) :
    (shapeCast S1x64 b shapeCasts_S64_S1x64) (ix2 (0 : Fin 1) q) = b (ix1 q) :=
  shapeCast_apply b shapeCasts_S64_S1x64 (ix2 (0 : Fin 1) q) (ix1 q)
    (by rewrite [Shape.rowMajor_val_one, Shape.rowMajor_val_two]; show q.val = 0 * 64 + q.val; omega)

end Cert.Sage.Ker

end
-- ==== Proof.KernelBlocks.lean ====
/-
  The windows' blocks read at an entry.

  The grid has ten points; point `t` works on nodes `5000·t … 5000·t + 4999`. The feature, summed-feature and in-degree
  windows move with the output window (block row `t`, block column `0`); the two weight matrices and the two bias rows are
  single blocks, the same at every point. So row `p` of a moving window's block at point `t` is row `5000·t + p` of its
  array, and a single-block window's entry is its array's entry.
-/
import proofs.«420493_j28346784153658_3_alg».proof.Proof.Gen.KernelIdeal.Value
import proofs.«420493_j28346784153658_3_alg».proof.Proof.KernelHost
import proofs.«420493_j28346784153658_3_alg».proof.Proof.Spec

noncomputable section

open scoped BigOperators

namespace Cert.Sage.Ker

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The node that row `p` of the block at grid point `t` holds. -/
def node (t : Fin cfg0.N) (p : Fin 5000) : Fin 50000 :=
  ⟨t.val * 5000 + p.val, by have h : cfg0.N = 10 := N_0; have := t.isLt; have := p.isLt; omega⟩

/-- The printed index maps over the ten points: the moving windows (features, summed features, in-degrees, output) are
    at block row `t`, column `0`; the weights and the bias rows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The windows' blocks at a point, at their literal types. -/
abbrev xblk (c : Dev nD) (t : Fin cfg0.N) : Vec Ideal S5000x64 .f32 := iblk m c 0 t
abbrev sblk (c : Dev nD) (t : Fin cfg0.N) : Vec Ideal S5000x64 .f32 := iblk m c 1 t
abbrev cblk (c : Dev nD) (t : Fin cfg0.N) : Vec Ideal S5000x1 .f32 := iblk m c 2 t
abbrev wsblk (c : Dev nD) (t : Fin cfg0.N) : Vec Ideal S64x64 .f32 := iblk m c 3 t
abbrev bsblk (c : Dev nD) (t : Fin cfg0.N) : Vec Ideal S1x64 .f32 := iblk m c 4 t
abbrev wmblk (c : Dev nD) (t : Fin cfg0.N) : Vec Ideal S64x64 .f32 := iblk m c 5 t
abbrev bmblk (c : Dev nD) (t : Fin cfg0.N) : Vec Ideal S1x64 .f32 := iblk m c 6 t

/-! ## Where a block's entry sits in its array -/

theorem emb0 (t : Fin cfg0.N) (p : Fin 5000) (k : Fin 64) :
    ((cfg0.win 0).blk t).view.emb (ix2 p k) = (ix2 (node t p) k : S50000x64.Idx) := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

theorem emb1 (t : Fin cfg0.N) (p : Fin 5000) (k : Fin 64) :
    ((cfg0.win 1).blk t).view.emb (ix2 p k) = (ix2 (node t p) k : S50000x64.Idx) := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

theorem emb2 (t : Fin cfg0.N) (p : Fin 5000) :
    ((cfg0.win 2).blk t).view.emb (ix2 p (0 : Fin 1)) = (ix2 (node t p) (0 : Fin 1) : S50000x1.Idx) := by
  obtain ⟨-, -, -, -, e0, e1, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

theorem emb3 (t : Fin cfg0.N) (k q : Fin 64) :
    ((cfg0.win 3).blk t).view.emb (ix2 k q) = (ix2 k q : S64x64.Idx) := by
  obtain ⟨-, -, -, -, -, -, e0, e1, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

theorem emb4 (t : Fin cfg0.N) (q : Fin 64) :
    ((cfg0.win 4).blk t).view.emb (ix2 (0 : Fin 1) q) = (ix2 (0 : Fin 1) q : S1x64.Idx) := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 64 + 1 * q.val = q.val; omega

theorem emb5 (t : Fin cfg0.N) (k q : Fin 64) :
    ((cfg0.win 5).blk t).view.emb (ix2 k q) = (ix2 k q : S64x64.Idx) := by
  obtain ⟨-, -, -, -, -, -, -, -, -, -, e0, e1, -⟩ := idx_facts t
  funext a; apply Fin.ext
  match a with
  | ⟨0, _⟩ => show win0_5.index t (0 : Fin 2) * 64 + 1 * k.val = k.val; omega
  | ⟨1, _⟩ => show win0_5.index t (1 : Fin 2) * 64 + 1 * q.val = q.val; omega

theorem emb6 (t : Fin cfg0.N) (q : Fin 64) :
    ((cfg0.win 6).blk t).view.emb (ix2 (0 : Fin 1) q) = (ix2 (0 : Fin 1) q : S1x64.Idx) := by
  obtain ⟨-, -, -, -, -, -, -, -, -, -, -, -, e0, e1, -⟩ := idx_facts t
  funext a; apply Fin.ext
  match a with
  | ⟨0, _⟩ => show win0_6.index t (0 : Fin 2) * 1 + 1 * 0 = 0; omega
  | ⟨1, _⟩ => show win0_6.index t (1 : Fin 2) * 64 + 1 * q.val = q.val; omega

theorem emb7 (t : Fin cfg0.N) (p : Fin 5000) (q : Fin 64) :
    ((cfg0.win 7).blk t).view.emb (ix2 p q) = (ix2 (node t p) q : S50000x64.Idx) := by
  obtain ⟨-, -, -, -, -, -, -, -, -, -, -, -, -, -, e0, e1⟩ := idx_facts t
  funext a; apply Fin.ext
  match a with
  | ⟨0, _⟩ => show win0_7.index t (0 : Fin 2) * 5000 + 1 * p.val = t.val * 5000 + p.val; omega
  | ⟨1, _⟩ => show win0_7.index t (1 : Fin 2) * 64 + 1 * q.val = q.val; omega

/-! ## A block read at an entry, for any contents of its array

Stated for an arbitrary array `X`, so that nothing about how the host computed the array is ever opened. -/

theorem rd0 (X : FVec Ideal S50000x64 .f32) (t : Fin cfg0.N) (p : Fin 5000) (k : Fin 64) :
    ((cfg0.win 0).blk t).view.read (Elt Ideal) X (ix2 p k) = X (ix2 (node t p) k) := by
  show X (((cfg0.win 0).blk t).view.emb (ix2 p k)) = _
  rw [emb0]

theorem rd1 (X : FVec Ideal S50000x64 .f32) (t : Fin cfg0.N) (p : Fin 5000) (k : Fin 64) :
    ((cfg0.win 1).blk t).view.read (Elt Ideal) X (ix2 p k) = X (ix2 (node t p) k) := by
  show X (((cfg0.win 1).blk t).view.emb (ix2 p k)) = _
  rw [emb1]

theorem rd2 (X : FVec Ideal S50000x1 .f32) (t : Fin cfg0.N) (p : Fin 5000) :
    ((cfg0.win 2).blk t).view.read (Elt Ideal) X (ix2 p (0 : Fin 1)) = X (ix2 (node t p) (0 : Fin 1)) := by
  show X (((cfg0.win 2).blk t).view.emb (ix2 p (0 : Fin 1))) = _
  rw [emb2]

theorem rd3 (X : FVec Ideal S64x64 .f32) (t : Fin cfg0.N) (k q : Fin 64) :
    ((cfg0.win 3).blk t).view.read (Elt Ideal) X (ix2 k q) = X (ix2 k q) := by
  show X (((cfg0.win 3).blk t).view.emb (ix2 k q)) = _
  rw [emb3]

theorem rd4 (X : FVec Ideal S1x64 .f32) (t : Fin cfg0.N) (q : Fin 64) :
    ((cfg0.win 4).blk t).view.read (Elt Ideal) X (ix2 (0 : Fin 1) q) = X (ix2 (0 : Fin 1) q) := by
  show X (((cfg0.win 4).blk t).view.emb (ix2 (0 : Fin 1) q)) = _
  rw [emb4]

theorem rd5 (X : FVec Ideal S64x64 .f32) (t : Fin cfg0.N) (k q : Fin 64) :
    ((cfg0.win 5).blk t).view.read (Elt Ideal) X (ix2 k q) = X (ix2 k q) := by
  show X (((cfg0.win 5).blk t).view.emb (ix2 k q)) = _
  rw [emb5]

theorem rd6 (X : FVec Ideal S1x64 .f32) (t : Fin cfg0.N) (q : Fin 64) :
    ((cfg0.win 6).blk t).view.read (Elt Ideal) X (ix2 (0 : Fin 1) q) = X (ix2 (0 : Fin 1) q) := by
  show X (((cfg0.win 6).blk t).view.emb (ix2 (0 : Fin 1) q)) = _
  rw [emb6]

/-! ## The blocks read at an entry -/

theorem xblk_apply (c : Dev nD) (t : Fin cfg0.N) (p : Fin 5000) (k : Fin 64) :
    xblk m c t (ix2 p k) = A0 m c (ix2 (node t p) k) := by
  show iblk m c 0 t (ix2 p k) = _
  unfold iblk
  refine (rd0 _ t p k).trans ?_
  exact congrFun (V_main_arg0 m c) _

theorem sblk_apply (c : Dev nD) (t : Fin cfg0.N) (p : Fin 5000) (k : Fin 64) :
    sblk m c t (ix2 p k)
      = ∑ e : Fin 800000, if Sage.lands (cidxK (A1 m c)) (node t p) e
          then A0 m c (ix2 (Sage.src (ridxK (A1 m c)) e) k) else 0 := by
  show iblk m c 1 t (ix2 p k) = _
  unfold iblk
  refine (rd1 _ t p k).trans ?_
  exact summed_apply m c (node t p) k

theorem cblk_apply (c : Dev nD) (t : Fin cfg0.N) (p : Fin 5000) :
    cblk m c t (ix2 p (0 : Fin 1)) = (((Sage.deg (cidxK (A1 m c)) (node t p) : ℝ)) : EReal) := by
  show iblk m c 2 t (ix2 p (0 : Fin 1)) = _
  unfold iblk
  refine (rd2 _ t p).trans ?_
  exact count_apply m c (node t p)

theorem wsblk_apply (c : Dev nD) (t : Fin cfg0.N) (k q : Fin 64) :
    wsblk m c t (ix2 k q) = transpose S64x64 [1, 0] (A4 m c) transposes_S64x64_S64x64_1_0 (ix2 k q) := by
  show iblk m c 3 t (ix2 k q) = _
  unfold iblk
  refine (rd3 _ t k q).trans ?_
  exact congrFun (V22 m c) _

theorem bsblk_apply (c : Dev nD) (t : Fin cfg0.N) (q : Fin 64) :
    bsblk m c t (ix2 (0 : Fin 1) q) = A5 m c (ix1 q) := by
  show iblk m c 4 t (ix2 (0 : Fin 1) q) = _
  unfold iblk
  refine (rd4 _ t q).trans ?_
  exact (congrFun (V21 m c) _).trans (biasrow_apply (A5 m c) q)

theorem wmblk_apply (c : Dev nD) (t : Fin cfg0.N) (k q : Fin 64) :
    wmblk m c t (ix2 k q) = transpose S64x64 [1, 0] (A2 m c) transposes_S64x64_S64x64_1_0 (ix2 k q) := by
  show iblk m c 5 t (ix2 k q) = _
  unfold iblk
  refine (rd5 _ t k q).trans ?_
  exact congrFun (V23 m c) _

theorem bmblk_apply (c : Dev nD) (t : Fin cfg0.N) (q : Fin 64) :
    bmblk m c t (ix2 (0 : Fin 1) q) = A3 m c (ix1 q) := by
  show iblk m c 6 t (ix2 (0 : Fin 1) q) = _
  unfold iblk
  refine (rd6 _ t q).trans ?_
  exact (congrFun (V20 m c) _).trans (biasrow_apply (A3 m c) q)

end Cert.Sage.Ker

end
-- ==== Proof.KernelPay.lean ====
/-
  The kernel body's one stored value, read at row `p`, column `q` of its 5000 × 64 block.

  The body loads a block of node features `x`, the block of summed neighbour features `s`, the block's in-degrees `c` (a
  column), both transposed weight matrices and both bias rows, and stores

      (x · wsT + bs)  +  ((s / max(c, 1)) · wmT  +  bm · [c > 0]).

  At the ideal values a change of float format is the identity, a product on the matrix unit into a zero accumulator is
  the sum over the 64 features, a row broadcast reads the row's column and a column broadcast reads the column's row.
-/
import proofs.«420493_j28346784153658_3_alg».proof.Proof.Gen.KernelIdeal.Skeleton
import proofs.«420493_j28346784153658_3_alg».proof.Proof.AggLaw
import proofs.«420493_j28346784153658_3_alg».proof.Proof.LibPlainDot
import Idealize.ShloMosaic.Lib.Pipeline.Value
import Idealize.ShloMosaic.Lib.IdealHost

noncomputable section

open scoped BigOperators

namespace Cert.Sage.Pay

open Cert.KernelIdeal Cert.KernelIdeal.Gen Idealize.ShloMosaic Idealize.ShloMosaic.TcCoe Idealize.ShloMosaic.ValueIdx

/-- The matrix unit's product of a 5000 × 64 block with a 64 × 64 matrix, from zero, at `(p, q)`. -/
theorem mm_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  show FloatOps.matmul dot_S5000x64_S64x64_S5000x64_1_0_0_1_n_n none l r (constant S5000x64 .f32 0x00000000#32) (ix2 p q) = _
  rw [LibPlainDot.matmul_zero_eq_matProd dot_S5000x64_S64x64_S5000x64_1_0_0_1_n_n rfl rfl rfl rfl rfl rfl none l r,
    LibPlainDot.matProd_ix2]

/-- A 1 × 64 row broadcast down the block reads the row at the column. -/
theorem row_bcast_apply {α : Type} (b : S1x64.Idx → α) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q)
    (by intro a; match a with | ⟨0, _⟩ => rfl | ⟨1, _⟩ => rfl)

/-- A 5000 × 1 column broadcast across the block reads the column at the row. -/
theorem col_bcast_apply {α : Type} (v : S5000x1.Idx → α) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1))
    (by intro a; match a with | ⟨0, _⟩ => rfl | ⟨1, _⟩ => rfl)

/-- THE STORED VALUE at `(p, q)`. -/
theorem pay_apply (x : Vec Ideal S5000x64 .f32) (wsT wmT : Vec Ideal S64x64 .f32) (bs bm : Vec Ideal S1x64 .f32)
    (c : Vec Ideal S5000x1 .f32) (s : Vec Ideal S5000x64 .f32) (p : Fin 5000) (q : Fin 64) :
    k0_pay1 (F := Ideal) x wsT wmT bs c s bm (ix2 p q)
      = ((∑ k : Fin 64, x (ix2 p k) * wsT (ix2 k q)) + bs (ix2 (0 : Fin 1) q))
        + ((∑ k : Fin 64, Ideal.div (s (ix2 p k)) (max (c (ix2 p (0 : Fin 1))) 1) * wmT (ix2 k q))
            + bm (ix2 (0 : Fin 1) q) * AggLaw.posMask (c (ix2 p (0 : Fin 1)))) := by
  unfold k0_pay1
  rw [addf_apply, addf_apply, addf_apply, mm_apply, row_bcast_apply, mm_apply, mulf_apply, row_bcast_apply, col_bcast_apply]
  have e0 : Scalar.ofBits (F := Ideal) .f32 0x00000000#32 = (0 : EReal) := Ideal.ofBits_zero_f32
  have e1 : Scalar.ofBits (F := Ideal) .f32 0x3F800000#32 = (1 : EReal) := Ideal.ofBits_one_f32
  simp only [shapeCast_self, truncf_apply, divf_apply, col_bcast_apply, maximumf_apply, broadcast_apply, sitofp_apply,
    extui_apply, cmpf_apply, e0, e1]
  rfl

end Cert.Sage.Pay

end
-- ==== Proof.KernelSide.lean ====
/-
  The kernel's result array is `KF` of the arguments.

  Row `p` of the block at point `t` is node `5000·t + p`, and the value the body stores at `(p, q)` is `KF` at that node
  and feature `q` (the stored value read at an entry, over the blocks read at an entry). The ten output blocks tile the
  array (node `n` lies in block `n / 5000`), so after the run the whole array is `KF`.
-/
import proofs.«420493_j28346784153658_3_alg».proof.Proof.Gen.KernelIdeal.Value
import proofs.«420493_j28346784153658_3_alg».proof.Proof.KernelBlocks
import proofs.«420493_j28346784153658_3_alg».proof.Proof.KernelPay
import proofs.«420493_j28346784153658_3_alg».proof.Proof.Spec

noncomputable section

open scoped BigOperators

namespace Cert.Sage.Ker

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-! ## What a point writes back, the cover, the array -/

/-- The kernel's arrangement of the arguments as launched. -/
def KArr (c : Dev nD) : FVec Ideal S50000x64 .f32 :=
  Sage.KF (A0 m c) (ridxK (A1 m c)) (cidxK (A1 m c)) (transpose S64x64 [1, 0] (A2 m c) transposes_S64x64_S64x64_1_0)
    (transpose S64x64 [1, 0] (A4 m c) transposes_S64x64_S64x64_1_0) (A3 m c) (A5 m c)

/-- The output window is not clipped: what a point writes back of a block is the block. -/
theorem cut7 (Y : Vec Ideal S5000x64 .f32) (t : Fin cfg0.N) (p : Fin 5000) (q : Fin 64) :
    (cfg0.win 7).cut (grid0.coords t) Y (ix2 p q) = Y (ix2 p q) := rfl

/-- Row `p` of the output block at point `t` is row `5000·t + p` of the array, whatever the array holds. -/
theorem rd7 (X : FVec Ideal S50000x64 .f32) (t : Fin cfg0.N) (p : Fin 5000) (q : Fin 64) :
    ((cfg0.win 7).blk t).view.read (Elt Ideal) X (ix2 p q) = X (ix2 (node t p) q) := by
  show X (((cfg0.win 7).blk t).view.emb (ix2 p q)) = _
  rw [emb7]

/-- The stored value at `(p, q)` of point `t`'s block is `KArr` at node `5000·t + p`, feature `q`. -/
theorem stored_eq (c : Dev nD) (t : Fin cfg0.N) (p : Fin 5000) (q : Fin 64) :
    k0_pay1 (F := Ideal) (xblk m c t) (wsblk m c t) (wmblk m c t) (bsblk m c t) (cblk m c t) (sblk m c t)
        (bmblk m c t) (ix2 p q) = KArr m c (ix2 (node t p) q) := by
  refine (Pay.pay_apply (xblk m c t) (wsblk m c t) (wmblk m c t) (bsblk m c t) (bmblk m c t) (cblk m c t)
    (sblk m c t) p q).trans ?_
  unfold KArr
  rw [Sage.KF_ix2]
  simp only [xblk_apply, sblk_apply, cblk_apply, wsblk_apply, bsblk_apply, wmblk_apply, bmblk_apply]
  unfold Sage.selfPart
  with_reducible rfl

/-- WHAT POINT `t` WRITES BACK is block `t` of `KArr`. -/
theorem flushed_eq (c : Dev nD) (t : Fin cfg0.N) :
    (dats m 0 c).flushed 7 t = ((cfg0.win 7).blk t).view.read (Elt Ideal) (KArr m c) := by
  rw [flushed7]
  unfold out0_7
  rw [View.canon_unit_zero hz]
  simp only [View.ld_unit_zero (S := S5000x64) hz, View.ld_unit_zero (S := S64x64) hz,
    View.ld_unit_zero (S := S1x64) hz, View.ld_unit_zero (S := S5000x1) hz]
  funext y
  obtain ⟨p, q, rfl⟩ : ∃ (p : Fin 5000) (q : Fin 64), y = ix2 p q := ⟨y 0, y 1, eq_ix2 (n0 := 5000) (n1 := 64) y⟩
  refine (cut7 _ t p q).trans ?_
  refine Eq.trans ?_ (rd7 (KArr m c) t p q).symm
  exact stored_eq m c t p q

/-- An index of the array is in point `t`'s output block iff each coordinate is in the block's range on its axis. -/
theorem mem_blk7 (t : Fin cfg0.N) (i : S50000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v24).slice (win0_7.rect t)).set ↔ _
  rw [View.set_slice_whole, Rect.mem_set_unit]
  exact Iff.rfl

/-- Every node's row lies in the output block of the point `n / 5000`. -/
theorem cover (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 10 := N_0
  refine ⟨⟨(i 0).val / 5000, by omega⟩, flush0_7 _, ?_⟩
  rw [mem_blk7]
  obtain ⟨-, -, -, -, -, -, -, -, -, -, -, -, -, -, e0, e1⟩ := idx_facts ⟨(i 0).val / 5000, by omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 64 ≤ (i 1).val ∧ (i 1).val < win0_7.index _ (1 : Fin 2) * 64 + 64
    rw [e1]; omega

/-- THE ARRAY after the run is `KArr`. -/
theorem final (c : Dev nD) : (dats m 0 c).arrAt 7 cfg0.N = KArr m c :=
  (dats m 0 c).arrAt_eq_of_cover 7 (KArr m c) (fun t _ => flushed_eq m c t) cover

/-- The kernel's run re-posted: the result array at `KArr`, the arguments unchanged. -/
theorem run : θ_run defs (onTc (τ := τ) (main (F := Ideal))) ⟨m, fun _ => 0, ρ⟩ fun r => ∀ c : Dev nD,
      r.2.mem ((c : Thread nD τ).loc main_v24) = KArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Sage.Ker

end
-- ==== Proof.Finite.lean ====
/-
  From the precondition to real numbers.

  The precondition is the conjunction, over the five float arguments, of "every entry's absolute value is below +∞". On
  the extended reals `|x| = max x (-x)`, which is `+∞` exactly at the two infinities, so each conjunct says every entry is a
  real number. Needed of the node features, the message weights and the message bias: the law that moves the average
  inside the projection distributes a product over a sum.
-/
import proofs.«420493_j28346784153658_3_alg».proof.Pre_finite_inputs
import proofs.«420493_j28346784153658_3_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Sage.Finite

open Cert.Pre_finite_inputs Cert.Pre_finite_inputs.Gen Idealize.ShloMosaic Idealize.ShloMosaic.ValueIdx

instance : Subsingleton S_.Idx := ⟨fun _ _ => funext fun d => d.elim0⟩

/-- The f32 pattern of +∞ is `⊤`. -/
theorem ofBits_inf : Ideal.ofBits .f32 0x7F800000#32 = (⊤ : EReal) := by
  simp [Ideal.ofBits, Ideal.ieee]

/-- An extended real whose absolute value compares below +∞ is a real number. -/
theorem real_of_abs_lt (x : EReal)
    (h : FloatOps.cmpf (F := Ideal) .olt (FloatOps.hostAbsf (F := Ideal) (φ := .f32) x) (Ideal.ofBits .f32 0x7F800000#32) = 1#1) :
    ∃ r : ℝ, x = (r : EReal) := by
  have h' : max x (-x) < (⊤ : EReal) := by
    have h2 : Ideal.cmp .olt (max x (-x)) (Ideal.ofBits .f32 0x7F800000#32) = 1#1 := h
    rw [ofBits_inf] at h2
    unfold Ideal.cmp at h2
    by_contra hn
    simp [hn] at h2
  induction x using EReal.rec with
  | bot => simp at h'
  | coe r => exact ⟨r, rfl⟩
  | top => simp at h'

/-- Under the precondition the node features, the message weights and the message bias hold real numbers. -/
theorem reals_of_pre (a0 : FVec Ideal S50000x64 .f32) (a1 : IVec S2x800000 32) (a2 : FVec Ideal S64x64 .f32)
    (a3 : FVec Ideal S64 .f32) (a4 : FVec Ideal S64x64 .f32) (a5 : FVec Ideal S64 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ix0
  dsimp only [fn, fn_part1] at h0
  obtain ⟨h1234, _⟩ := IntOp.andi_eq_one.1 h0
  obtain ⟨h123, _⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_⟩
  · exact real_of_abs_lt _ (Host.reduce_andi_all _ _ _ _ ix0 h1 i)
  · exact real_of_abs_lt _ (Host.reduce_andi_all _ _ _ _ ix0 h2 i)
  · exact real_of_abs_lt _ (Host.reduce_andi_all _ _ _ _ ix0 h3 i)

end Cert.Sage.Finite

end
-- ==== Proof.lean ====
/-
  A graph layer (mean aggregation over incoming edges, plus a self term), kernel against reference, over the extended
  reals.

  Both programs read node features `x` (50000 × 64), an edge list (source words, destination words; 800000 edges),
  message weights and bias, self weights and bias, and return for node `n`, feature `j`

      x[n,:]·W_self[j,:] + b_self[j]  +  mean over the edges e landing on n of (x[src e,:]·W_msg[j,:] + b_msg[j]),

  the mean taken over `max(deg n, 1)` so that a node with no incoming edge gets the self term alone. The reference
  projects every node first and averages the projected messages. The kernel adds up the raw source features per
  destination on the host, counts the in-degree in integers, and in one fused pass divides, projects the mean once and
  adds the message bias only where the in-degree is positive. A gather clamps a source word into the node range and a
  scatter drops a destination word outside it; both programs use the same index columns, so they treat such words
  alike. The two arrangements are one function because projecting is linear and the bias, summed `deg` times and divided
  by `deg`, is the bias: this needs the features, the message weights and the message bias to be real numbers, which is
  what the precondition gives.

  Modules: Spec (the two arrangements `G`, `KF` and `KF = G`), AggLaw (the law over the reals), RefSide (the reference's
  run is `G`), KernelPay / KernelHost / KernelSide (the kernel's run is `KF`), Finite (the precondition gives reals);
  LibScatterGather, LibPlainDot and LibIntCount read a scatter, a gather, a matrix product and an integer count at an
  index. The frames of the two kernel programs and the reference's run are the generated ones.
-/
import proofs.«420493_j28346784153658_3_alg».proof.Defs
import proofs.«420493_j28346784153658_3_alg».proof.Proof.Gen.Kernel
import proofs.«420493_j28346784153658_3_alg».proof.Proof.Gen.Kernel.Skeleton
import proofs.«420493_j28346784153658_3_alg».proof.Proof.Gen.Kernel.Launch
import proofs.«420493_j28346784153658_3_alg».proof.Proof.Gen.Kernel.Points
import proofs.«420493_j28346784153658_3_alg».proof.Proof.Gen.Kernel.Frame
import proofs.«420493_j28346784153658_3_alg».proof.Proof.Gen.KernelIdeal
import proofs.«420493_j28346784153658_3_alg».proof.Proof.Gen.KernelIdeal.Skeleton
import proofs.«420493_j28346784153658_3_alg».proof.Proof.Gen.KernelIdeal.Launch
import proofs.«420493_j28346784153658_3_alg».proof.Proof.Gen.KernelIdeal.Points
import proofs.«420493_j28346784153658_3_alg».proof.Proof.Gen.KernelIdeal.Frame
import proofs.«420493_j28346784153658_3_alg».proof.Proof.Gen.ReferenceIdeal
import proofs.«420493_j28346784153658_3_alg».proof.Proof.Gen.Pre_finite_inputs
import proofs.«420493_j28346784153658_3_alg».proof.Proof.Gen.KernelIdeal.Value
import proofs.«420493_j28346784153658_3_alg».proof.Proof.Gen.ReferenceIdeal.Run
import proofs.«420493_j28346784153658_3_alg».proof.Proof.Spec
import proofs.«420493_j28346784153658_3_alg».proof.Proof.RefSide
import proofs.«420493_j28346784153658_3_alg».proof.Proof.KernelSide
import proofs.«420493_j28346784153658_3_alg».proof.Proof.Finite
import Idealize.ShloMosaic.Adequacy
import Idealize.ShloMosaic.Init

noncomputable section

namespace Cert.Proof

open Idealize.ShloMosaic Idealize.SL.Sem

/-- The two arrangements agree wherever the features, the message weights and the message bias are real numbers. -/
theorem KF_eq_G_of_real (x : Sage.Nodes.Idx → EReal) (ridx cidx : IVec Sage.EdgeCol 32) (wmT wsT : Sage.Wts.Idx → EReal)
    (bm bs : Sage.Bias.Idx → EReal) (hx : ∀ i, ∃ r : ℝ, x i = (r : EReal)) (hw : ∀ i, ∃ r : ℝ, wmT i = (r : EReal))
    (hb : ∀ i, ∃ r : ℝ, bm i = (r : EReal)) :
    Sage.KF x ridx cidx wmT wsT bm bs = Sage.G x ridx cidx wmT wsT bm bs := by
  choose xr hxr using hx
  choose wr hwr using hw
  choose br hbr using hb
  obtain rfl : x = fun i => ((xr i : ℝ) : EReal) := funext hxr
  obtain rfl : wmT = fun i => ((wr i : ℝ) : EReal) := funext hwr
  obtain rfl : bm = fun i => ((br i : ℝ) : EReal) := funext hbr
  exact Sage.KF_eq_G xr ridx cidx wr wsT br bs

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's array ends at `KF` of the arguments, the reference's at `G` of arguments that agree; under the
    precondition the features, message weights and message bias are real, and there `KF = G`. -/
theorem algebraic : Cert.algebraic_KernelIdeal_ReferenceIdeal := by
  intro m ρ m' ρ' hpre hagree
  refine ⟨fun c => Sage.Ker.KArr m c, Sage.Ker.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  obtain ⟨hx, hw, hb⟩ := Sage.Finite.reals_of_pre _ _ _ _ _ _ (hpre c)
  refine (Sage.Ref.result_eq_G _ _ _ _ _ _ _).trans ?_
  exact (KF_eq_G_of_real _ _ _ _ _ _ _ hx (fun i => hw _) hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
